-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1x128 : Shape := ⟨2, ![1, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v15 : FVec F S1x128 .f32) (main_cst_5 : FVec F S_ .f32) : IVec S_ 1 :=
  let main_v16 : FVec F S1x128 .f32 := broadcastInDim S1x128 ![] bcast_S_S1x128 main_cst_5
  let main_v17 : IVec S1x128 1 := cmpf .une main_v15 main_v16
  let main_c_6 : IVec S_ 1 := constantI S_ 1 1#1
  let main_v18 : IVec S_ 1 := (fun x v => Host.reduce IntOp.andi x v reducesTo_S1x128_S_d0_1 h_S_) main_v17 main_c_6
  let main_v19 : IVec S_ 1 := andi main_v13 main_v18
  main_v19

def fn {F : FTy → Type} [FloatOps F] (main_arg0 : FVec F S1048576x128 .f32) (main_arg1 : FVec F S1x128 .f32) (main_arg2 : FVec F S1x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_cst_4 : FVec F S_ .f32 := constant S_ .f32 0x322BCC77#32
  let main_v14 : FVec F S1x128 .f32 := broadcastInDim S1x128 ![] bcast_S_S1x128 main_cst_4
  let main_v15 : FVec F S1x128 .f32 := addf main_arg2 main_v14
  let main_cst_5 : FVec F S_ .f32 := constant S_ .f32 0x00000000#32
  fn_part1 (F := F) main_v13 main_v15 main_cst_5
-- ==== Kernel.lean ====
abbrev S1048576x128 : Shape := ⟨2, ![1048576, 128]⟩
abbrev S1x128 : Shape := ⟨2, ![1, 128]⟩
abbrev S_ : Shape := ⟨0, ![]⟩
abbrev S1x1 : Shape := ⟨2, ![1, 1]⟩
abbrev S1048576 : Shape := ⟨1, ![1048576]⟩
abbrev S32768x128 : Shape := ⟨2, ![32768, 128]⟩
abbrev S32768 : Shape := ⟨1, ![32768]⟩
abbrev S2048x128 : Shape := ⟨2, ![2048, 128]⟩
abbrev S2048 : Shape := ⟨1, ![2048]⟩

abbrev nBuf : Space → Nat
  | .hbm => 15
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S1x128, .f32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S1048576, .f32⟩
  | .local _ .vmem, ⟨0, _⟩ => ⟨S32768x128, .f32⟩
  | .local _ .vmem, ⟨1, _⟩ => ⟨S32768x128, .f32⟩
  | .local _ .vmem, ⟨2, _⟩ => ⟨S1x128, .f32⟩
  | .local _ .vmem, ⟨3, _⟩ => ⟨S1x128, .f32⟩
  | .local _ .vmem, ⟨4, _⟩ => ⟨S1x1, .f32⟩
  | .local _ .vmem, ⟨5, _⟩ => ⟨S32768, .f32⟩
  | .local _ .vmem, ⟨6, _⟩ => ⟨S32768, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v5 : BitVec 32 := Scalar.muli c0_i32 c2048_i32
  v5
def k0_off1 (c0_i32 : BitVec 32) : Fin 2 → Nat :=
  let c2048_i32 : BitVec 32 := 2048#32
  let v5 : BitVec 32 := Scalar.muli c0_i32 c2048_i32
  let v6 : BitVec 32 := v5
  let v7 : Index := Scalar.indexCast v6
  let c0_5 : Index := 0#32
  ![v7.toNat, 0]
def k0_off2 (c0_i32 : BitVec 32) : Fin 1 → Nat :=
  let c2048_i32 : BitVec 32 := 2048#32
  let v5 : BitVec 32 := Scalar.muli c0_i32 c2048_i32
  let v6 : BitVec 32 := v5
  let v18 : Index := Scalar.indexCast v6
  ![v18.toNat]
def k0_mult2 : BitVec 32 :=
  let c1_i32 : BitVec 32 := 1#32
  let c2048_i32_6 : BitVec 32 := 2048#32
  let v20 : BitVec 32 := Scalar.muli c1_i32 c2048_i32_6
  v20
def k0_mult3 : BitVec 32 :=
  let c2_i32 : BitVec 32 := 2#32
  let c2048_i32_9 : BitVec 32 := 2048#32
  let v35 : BitVec 32 := Scalar.muli c2_i32 c2048_i32_9
  v35
def k0_mult4 : BitVec 32 :=
  let c3_i32 : BitVec 32 := 3#32
  let c2048_i32_12 : BitVec 32 := 2048#32
  let v50 : BitVec 32 := Scalar.muli c3_i32 c2048_i32_12
  v50
def k0_mult5 : BitVec 32 :=
  let c4_i32 : BitVec 32 := 4#32
  let c2048_i32_15 : BitVec 32 := 2048#32
  let v65 : BitVec 32 := Scalar.muli c4_i32 c2048_i32_15
  v65
def k0_mult6 : BitVec 32 :=
  let c5_i32 : BitVec 32 := 5#32
  let c2048_i32_18 : BitVec 32 := 2048#32
  let v80 : BitVec 32 := Scalar.muli c5_i32 c2048_i32_18
  v80
def k0_mult7 : BitVec 32 :=
  let c6_i32 : BitVec 32 := 6#32
  let c2048_i32_21 : BitVec 32 := 2048#32
  let v95 : BitVec 32 := Scalar.muli c6_i32 c2048_i32_21
  v95
def k0_mult8 : BitVec 32 :=
  let c7_i32 : BitVec 32 := 7#32
  let c2048_i32_24 : BitVec 32 := 2048#32
  let v110 : BitVec 32 := Scalar.muli c7_i32 c2048_i32_24
  v110
def k0_mult9 : BitVec 32 :=
  let c8_i32 : BitVec 32 := 8#32
  let c2048_i32_27 : BitVec 32 := 2048#32
  let v125 : BitVec 32 := Scalar.muli c8_i32 c2048_i32_27
  v125
def k0_mult10 : BitVec 32 :=
  let c9_i32 : BitVec 32 := 9#32
  let c2048_i32_30 : BitVec 32 := 2048#32
  let v140 : BitVec 32 := Scalar.muli c9_i32 c2048_i32_30
  v140
def k0_mult11 : BitVec 32 :=
  let c10_i32 : BitVec 32 := 10#32
  let c2048_i32_33 : BitVec 32 := 2048#32
  let v155 : BitVec 32 := Scalar.muli c10_i32 c2048_i32_33
  v155
def k0_mult12 : BitVec 32 :=
  let c11_i32 : BitVec 32 := 11#32
  let c2048_i32_36 : BitVec 32 := 2048#32
  let v170 : BitVec 32 := Scalar.muli c11_i32 c2048_i32_36
  v170
def k0_mult13 : BitVec 32 :=
  let c12_i32 : BitVec 32 := 12#32
  let c2048_i32_39 : BitVec 32 := 2048#32
  let v185 : BitVec 32 := Scalar.muli c12_i32 c2048_i32_39
  v185
def k0_mult14 : BitVec 32 :=
  let c13_i32 : BitVec 32 := 13#32
  let c2048_i32_42 : BitVec 32 := 2048#32
  let v200 : BitVec 32 := Scalar.muli c13_i32 c2048_i32_42
  v200
def k0_mult15 : BitVec 32 :=
  let c14_i32 : BitVec 32 := 14#32
  let c2048_i32_45 : BitVec 32 := 2048#32
  let v215 : BitVec 32 := Scalar.muli c14_i32 c2048_i32_45
  v215
def k0_mult16 : BitVec 32 :=
  let c15_i32 : BitVec 32 := 15#32
  let c2048_i32_48 : BitVec 32 := 2048#32
  let v230 : BitVec 32 := Scalar.muli c15_i32 c2048_i32_48
  v230
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1x128 : S_.BroadcastsInDim S1x128 (![] : Fin 0 → Fin S1x128.rank)
  reducesTo_S1x128_S_d0_1 : S1x128.ReducesTo [0, 1] S_
  h_S_ : 0 < S_.numel
  shapeCasts_S_S1x1 : S_.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  h_S2048x128 : 0 < S2048x128.numel
  broadcasts_S1x128_S2048x128 : S1x128.Broadcasts S2048x128
  reduces_S2048x128_S2048 : S2048x128.Reduces [1] S2048
  h_S2048 : 0 < S2048.numel
  hrank0 : 0 < grid0.rank
  k0_mult1_dvd : 2048 ∣ k0_mult1.toNat
  k0_off1_inb : ∀ (r : Fin 16), ∀ a, (k0_off1 (BitVec.ofNat 32 r.val)) a + S2048x128.size a ≤ S32768x128.size a
  k0_off2_inb : ∀ (r : Fin 16), ∀ a, (k0_off2 (BitVec.ofNat 32 r.val)) a + S2048.size a ≤ S32768.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  k0_mult9_dvd : 2048 ∣ k0_mult9.toNat
  k0_mult10_dvd : 2048 ∣ k0_mult10.toNat
  k0_mult11_dvd : 2048 ∣ k0_mult11.toNat
  k0_mult12_dvd : 2048 ∣ k0_mult12.toNat
  k0_mult13_dvd : 2048 ∣ k0_mult13.toNat
  k0_mult14_dvd : 2048 ∣ k0_mult14.toNat
  k0_mult15_dvd : 2048 ∣ k0_mult15.toNat
  k0_mult16_dvd : 2048 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S1048576x128.size a
  hwx0_0 : ∀ i : grid0.Coords, EltTy.bits .f32 = 32 ∨ (Rect.block (s := S1048576x128) S32768x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768.size a ≤ S1048576.size a
  hwx0_4 : ∀ i : grid0.Coords, EltTy.bits .f32 = 32 ∨ (Rect.block (s := S1048576) S32768.size (cc0_transform_4 i) (hinb0_4 i)).WholeWords (EltTy.packing .f32)

variable [Facts₀]

abbrev win0_0 : Pipeline.Window sig grid0 :=
  Pipeline.Window.ofSpec (Memref.whole main_arg0) S32768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S1x128 : Shape := ⟨2, ![1, 128]⟩
abbrev S_ : Shape := ⟨0, ![]⟩
abbrev S1048576 : Shape := ⟨1, ![1048576]⟩

abbrev nBuf : Space → Nat
  | .hbm => 21
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1x128, .f32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S1x128, .f32⟩
  | .hbm, ⟨6, _⟩ => ⟨S1048576x128, .f32⟩
  | .hbm, ⟨7, _⟩ => ⟨S1048576x128, .f32⟩
  | .hbm, ⟨8, _⟩ => ⟨S1048576x128, .f32⟩
  | .hbm, ⟨9, _⟩ => ⟨S1048576x128, .f32⟩
  | .hbm, ⟨10, _⟩ => ⟨S1048576x128, .f32⟩
  | .hbm, ⟨11, _⟩ => ⟨S_, .f32⟩
  | .hbm, ⟨12, _⟩ => ⟨S1048576x128, .f32⟩
  | .hbm, ⟨13, _⟩ => ⟨S1048576x128, .f32⟩
  | .hbm, ⟨14, _⟩ => ⟨S1048576x128, .f32⟩
  | .hbm, ⟨15, _⟩ => ⟨S_, .f32⟩
  | .hbm, ⟨16, _⟩ => ⟨S1048576, .f32⟩
  | .hbm, ⟨17, _⟩ => ⟨S_, .f32⟩
  | .hbm, ⟨18, _⟩ => ⟨S_, .f32⟩
  | .hbm, ⟨19, _⟩ => ⟨S1048576, .f32⟩
  | .hbm, ⟨20, _⟩ => ⟨S1048576, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  reducesTo_S1048576x128_S1048576_d1 : S1048576x128.ReducesTo [1] S1048576
  h_S_ : 0 < S_.numel
  reducesTo_S1x128_S_d0_1 : S1x128.ReducesTo [0, 1] S_
  bcast_S_S1048576 : S_.BroadcastsInDim S1048576 (![] : Fin 0 → Fin S1048576.rank)

variable [Facts₀]

class Facts : Prop extends Facts₀ where

variable [Facts]
-- ==== Proof.Chunk.lean ====
/-
  One 2048-row slice of the kernel's block, as a pure function of what the body loaded.

  For a slice `xc` of 2048 rows of `x`, the channel means `mu`, the per-channel factors `sc` and the scalar `inv`,
  every row `r` of the slice ends at
      (∑ k, exp ((xc r k - mu k)² · sc k)) · inv.
  The body is sixteen such slices written one after another; the printed text cuts them into named values in three
  slightly different ways (the mean's broadcast is sometimes taken a slice early, the factor and the scalar are
  sometimes still the raw loads), and each of those is this one function, by unfolding.
-/
import proofs.«413082_j46179488367043_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx

variable {F : FTy → Type} [FloatOps F]

/-- The slice's value: subtract the means, square, scale per channel, exponentiate, sum each row's 128 lanes,
    multiply by the scalar. -/
def chunk (mu sc : FVec F S1x128 .f32) (inv : F .f32) (xc : FVec F S2048x128 .f32) : FVec F S2048 .f32 :=
  mulf (multiReduction .add [1] S2048
      (exp (mulf (mulf (subf xc (broadcastTo S2048x128 mu broadcasts_S1x128_S2048x128))
                        (subf xc (broadcastTo S2048x128 mu broadcasts_S1x128_S2048x128)))
                  (broadcastTo S2048x128 sc broadcasts_S1x128_S2048x128)))
      0x00000000#32 reduces_S2048x128_S2048 (.inl rfl) rfl)
    (broadcast S2048 inv)

/-! ### The printed values are the slice function -/

-- the slices whose factor and scalar are still the raw loads
theorem pay5_eq (v0 v1 : Vec F S1x128 .f32) (v3 : Vec F S1x1 .f32) (x : Vec F S2048x128 .f32) :
    k0_pay5 v0 v1 v3 x = chunk v0 (k0_pay3 v1) (k0_pay4 v3) x := rfl
theorem pay6_eq (v0 v1 : Vec F S1x128 .f32) (v3 : Vec F S1x1 .f32) (x : Vec F S2048x128 .f32) :
    k0_pay6 v0 v1 v3 x = chunk v0 (k0_pay3 v1) (k0_pay4 v3) x := rfl

-- the slices that take the means, the factors and the scalar as they are
theorem pay2_eq (v0 : Vec F S1x128 .f32) (v2 : FVec F S1x128 .f32) (v4 : F .f32) (x : Vec F S2048x128 .f32) :
    k0_pay2 v0 v2 v4 x = chunk v0 v2 v4 x := rfl
theorem pay9_eq (v0 : Vec F S1x128 .f32) (v2 : FVec F S1x128 .f32) (v4 : F .f32) (x : Vec F S2048x128 .f32) :
    k0_pay9 v0 v2 v4 x = chunk v0 v2 v4 x := rfl
theorem pay10_eq (v0 : Vec F S1x128 .f32) (v2 : FVec F S1x128 .f32) (v4 : F .f32) (x : Vec F S2048x128 .f32) :
    k0_pay10 v0 v2 v4 x = chunk v0 v2 v4 x := rfl
theorem pay13_eq (v0 : Vec F S1x128 .f32) (v2 : FVec F S1x128 .f32) (v4 : F .f32) (x : Vec F S2048x128 .f32) :
    k0_pay13 v0 v2 v4 x = chunk v0 v2 v4 x := rfl
theorem pay14_eq (v0 : Vec F S1x128 .f32) (v2 : FVec F S1x128 .f32) (v4 : F .f32) (x : Vec F S2048x128 .f32) :
    k0_pay14 v0 v2 v4 x = chunk v0 v2 v4 x := rfl
theorem pay17_eq (v0 : Vec F S1x128 .f32) (v2 : FVec F S1x128 .f32) (v4 : F .f32) (x : Vec F S2048x128 .f32) :
    k0_pay17 v0 v2 v4 x = chunk v0 v2 v4 x := rfl
theorem pay18_eq (v0 : Vec F S1x128 .f32) (v2 : FVec F S1x128 .f32) (v4 : F .f32) (x : Vec F S2048x128 .f32) :
    k0_pay18 v0 v2 v4 x = chunk v0 v2 v4 x := rfl
theorem pay21_eq (v0 : Vec F S1x128 .f32) (v2 : FVec F S1x128 .f32) (v4 : F .f32) (x : Vec F S2048x128 .f32) :
    k0_pay21 v0 v2 v4 x = chunk v0 v2 v4 x := rfl
theorem pay22_eq (v0 : Vec F S1x128 .f32) (v2 : FVec F S1x128 .f32) (v4 : F .f32) (x : Vec F S2048x128 .f32) :
    k0_pay22 v0 v2 v4 x = chunk v0 v2 v4 x := rfl

-- the slices whose broadcast of the means was taken one slice early
theorem pay8_eq (v0 : Vec F S1x128 .f32) (v2 : FVec F S1x128 .f32) (v4 : F .f32) (x : Vec F S2048x128 .f32) :
    k0_pay8 v2 v4 x (k0_pay7 v0) = chunk v0 v2 v4 x := rfl
theorem pay12_eq (v0 : Vec F S1x128 .f32) (v2 : FVec F S1x128 .f32) (v4 : F .f32) (x : Vec F S2048x128 .f32) :
    k0_pay12 v2 v4 x (k0_pay11 v0) = chunk v0 v2 v4 x := rfl
theorem pay16_eq (v0 : Vec F S1x128 .f32) (v2 : FVec F S1x128 .f32) (v4 : F .f32) (x : Vec F S2048x128 .f32) :
    k0_pay16 v2 v4 x (k0_pay15 v0) = chunk v0 v2 v4 x := rfl
theorem pay20_eq (v0 : Vec F S1x128 .f32) (v2 : FVec F S1x128 .f32) (v4 : F .f32) (x : Vec F S2048x128 .f32) :
    k0_pay20 v2 v4 x (k0_pay19 v0) = chunk v0 v2 v4 x := rfl
theorem pay1_eq (v0 : Vec F S1x128 .f32) (v2 : FVec F S1x128 .f32) (v4 : F .f32) (x : Vec F S2048x128 .f32) :
    k0_pay1 v2 v4 x (k0_pay23 v0) = chunk v0 v2 v4 x := rfl

/-- The factors pass through a shape cast onto their own shape. -/
theorem pay3_eq (v1 : Vec F S1x128 .f32) : k0_pay3 v1 = v1 := by
  unfold k0_pay3; exact shapeCast_self _ _

/-- The scalar is the one entry of its 1×1 block. -/
theorem pay4_eq (v3 : Vec F S1x1 .f32) : k0_pay4 v3 = v3 (ix2 (0 : Fin 1) (0 : Fin 1)) := by
  unfold k0_pay4 extractAt
  exact congrArg v3 (funext fun a => Fin.ext (by match a with | ⟨0, _⟩ => rfl | ⟨1, _⟩ => rfl))

/-! ### The slice at a row, on the extended reals -/

/-- A lane sum from zero over the 128 lanes of a row, read as a sum over the lanes. -/
theorem laneSum_apply (src : FVec Ideal S2048x128 .f32) (hφ : FKind.Formats .f32)
    (hacc : (0x00000000#32 : BitVec 32) = 0x00000000#32) (r : Fin 2048) :
    multiReduction (F := Ideal) .add [1] S2048 src 0x00000000#32 reduces_S2048x128_S2048 hφ hacc (ix1 r)
      = ∑ k : Fin 128, src (ix2 r k) := by
  refine (Ideal.multiReduction_add_single src 0x00000000#32 reduces_S2048x128_S2048 hφ hacc (ix1 r)).trans ?_
  refine Finset.sum_congr rfl fun k _ => congrArg src (funext fun a => Fin.ext ?_)
  match a with
  | ⟨0, _⟩ => rfl
  | ⟨1, _⟩ => rfl

/-- A [1,128] row broadcast over 2048 rows, read at (r, k), is the row at (0, k). -/
theorem rowBroadcast_apply (v : FVec Ideal S1x128 .f32) (r : Fin 2048) (k : Fin 128) :
    broadcastTo S2048x128 v broadcasts_S1x128_S2048x128 (ix2 r k) = v (ix2 (0 : Fin 1) k) :=
  broadcastTo_apply v broadcasts_S1x128_S2048x128 (ix2 r k) (ix2 (0 : Fin 1) k) (fun a => by
    match a with
    | ⟨0, _⟩ => rfl
    | ⟨1, _⟩ => rfl)

/-- Row `r` of the slice: the sum over the 128 channels of exp ((x - μ)² · s), times the scalar. -/
theorem chunk_apply (mu sc : FVec Ideal S1x128 .f32) (inv : EReal) (xc : FVec Ideal S2048x128 .f32) (r : Fin 2048) :
    chunk (F := Ideal) mu sc inv xc (ix1 r)
      = (∑ k : Fin 128, Ideal.exp ((xc (ix2 r k) - mu (ix2 (0 : Fin 1) k)) * (xc (ix2 r k) - mu (ix2 (0 : Fin 1) k))
          * sc (ix2 (0 : Fin 1) k))) * inv := by
  unfold chunk
  refine (mulf_apply _ _ (ix1 r)).trans ?_
  rw [broadcast_apply]
  refine congrArg (· * inv) ?_
  refine (laneSum_apply _ _ _ r).trans ?_
  refine Finset.sum_congr rfl fun k _ => ?_
  show Ideal.exp ((xc (ix2 r k) - broadcastTo S2048x128 mu broadcasts_S1x128_S2048x128 (ix2 r k))
      * (xc (ix2 r k) - broadcastTo S2048x128 mu broadcasts_S1x128_S2048x128 (ix2 r k))
      * broadcastTo S2048x128 sc broadcasts_S1x128_S2048x128 (ix2 r k)) = _
  rw [rowBroadcast_apply mu r k, rowBroadcast_apply sc r k]

end Cert.KernelIdeal.Rows

end
-- ==== Proof.Block.lean ====
/-
  What the body leaves in the output's staging buffer, in closed form.

  The body writes sixteen slices of 2048 rows, slice c through rows 2048·c … 2048·c + 2047 of the [32768] buffer,
  each computed from rows 2048·c … of the staged block of `x`.  Every slice restricts ONE function of the row,
      row y  ↦  (∑ₖ exp ((x y k - μ k)² · s k)) · inv,
  so what the sixteen stores leave is that function (the slices tile the buffer).
-/
import proofs.«413082_j46179488367043_3_alg».proof.Proof.Gen.KernelIdeal.Frame
import proofs.«413082_j46179488367043_3_alg».proof.Proof.Chunk

set_option maxRecDepth 16384

noncomputable section

namespace Cert.KernelIdeal.Rows

open Cert.KernelIdeal Cert.KernelIdeal.Gen Idealize.ShloMosaic Idealize.ShloMosaic.ValueIdx
open Idealize.ShloMosaic.TcCoe Idealize.ShloMosaic.Tactic
open Idealize.SL Idealize.SL.Sem

/-- The block's rows: row y of the output block from row y of the staged `x` block, the means, the factors and the scalar. -/
def blockRows (x0 : Vec Ideal S32768x128 .f32) (x1 x2 : Vec Ideal S1x128 .f32) (x3 : Vec Ideal S1x1 .f32) :
    Vec Ideal S32768 .f32 :=
  fun y => (∑ k : Fin 128, Ideal.exp ((x0 (ix2 (n0 := 32768) (n1 := 128) (y 0) k) - x1 (ix2 (0 : Fin 1) k)) * (x0 (ix2 (n0 := 32768) (n1 := 128) (y 0) k) - x1 (ix2 (0 : Fin 1) k))
      * x2 (ix2 (0 : Fin 1) k))) * x3 (ix2 (0 : Fin 1) (0 : Fin 1))

theorem hz2 : (![0, 0] : Fin 2 → Nat) = fun _ => 0 := funext fun a => by fin_cases a <;> rfl

/-- The slice stored at rows `off …`, computed from rows `off …` of the staged block, is the block's function there. -/
theorem piece_apply (x0 : Vec Ideal S32768x128 .f32) (x1 x2 : Vec Ideal S1x128 .f32) (x3 : Vec Ideal S1x1 .f32)
    (off : Nat) (inb1 : ∀ a, (![off] : Fin 1 → Nat) a + (![2048] : Fin 1 → Nat) a ≤ S32768.size a)
    (inb2 : ∀ a, (![off, 0] : Fin 2 → Nat) a + (![2048, 128] : Fin 2 → Nat) a ≤ S32768x128.size a)
    (r : Fin 2048) :
    chunk (F := Ideal) x1 x2 (x3 (ix2 (0 : Fin 1) (0 : Fin 1))) (View.ld x0 (Rect.unit (s := S32768x128) ![off, 0] ![2048, 128] inb2)) (ix1 r)
      = blockRows x0 x1 x2 x3 ((Rect.unit (s := S32768) ![off] ![2048] inb1).emb (ix1 r)) := by
  rw [chunk_apply]
  unfold blockRows
  have hrow : ∀ k : Fin 128, (Rect.unit (s := S32768x128) ![off, 0] ![2048, 128] inb2).idx (ix2 r k)
      = ix2 (n0 := 32768) (n1 := 128) ((Rect.unit (s := S32768) ![off] ![2048] inb1).emb (ix1 r) 0) k := by
    intro k; funext a; apply Fin.ext
    match a with
    | ⟨0, _⟩ => rfl
    | ⟨1, _⟩ => show 0 + 1 * k.val = k.val; omega
  refine congrArg (· * _) (Finset.sum_congr rfl fun k _ => ?_)
  exact congrArg (fun z : EReal => Ideal.exp ((z - x1 (ix2 (0 : Fin 1) k)) * (z - x1 (ix2 (0 : Fin 1) k)) * x2 (ix2 (0 : Fin 1) k)))
    (congrArg x0 (hrow k))

/-- WHAT THE BODY LEAVES: the block's rows. -/
theorem out_eq (c : Dev nD) (i : grid0.Coords) (arg1 : Memref sig .tc .vmem S32768x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x1 .f32) (harg4 : arg4.IsWhole) (arg5 : Memref sig .tc .vmem S32768 .f32) (harg5 : arg5.IsWhole)
    (x0 : Vec Ideal S32768x128 .f32) (x1 x2 : Vec Ideal S1x128 .f32) (x3 : Vec Ideal S1x1 .f32) :
    out0_A_4 (F := Ideal) c i arg1 harg1 arg2 harg2 arg3 harg3 arg4 harg4 arg5 harg5 x0 x1 x2 x3 = blockRows x0 x1 x2 x3 := by
  unfold out0_A_4
  rw [View.read_writes_eq_canon _ _ _ (cover0_A_4 c i arg1 harg1 arg2 harg2 arg3 harg3 arg4 harg4 arg5 harg5 x0 x1 x2 x3)]
  funext y
  have hcov := cover0_A_4 (F := Ideal) c i arg1 harg1 arg2 harg2 arg3 harg3 arg4 harg4 arg5 harg5 x0 x1 x2 x3 y
  revert hcov
  unfold kernelRun0_A
  dsimp only
  sl_unfold_words
  intro hcov
  refine View.canon_apply_of_pieces (blockRows x0 x1 x2 x3) _ ?_ y hcov
  intro pc hpc x
  simp only [List.mem_cons, List.not_mem_nil, or_false] at hpc
  rcases hpc with rfl | rfl | rfl | rfl | rfl | rfl | rfl | rfl | rfl | rfl | rfl | rfl | rfl | rfl | rfl | rfl
  all_goals
    simp only [View.readAt_eq_ld, harg1.read_unread, harg2.read_unread, harg3.read_unread, harg4.read_unread,
      View.ld_unit_zero (S := S1x128) hz2, View.ld_unit_zero (S := S1x1) hz2,
      pay1_eq, pay2_eq, pay5_eq, pay6_eq, pay8_eq, pay9_eq, pay10_eq, pay12_eq, pay13_eq, pay14_eq, pay16_eq,
      pay17_eq, pay18_eq, pay20_eq, pay21_eq, pay22_eq, pay3_eq, pay4_eq]
    obtain ⟨r, rfl⟩ : ∃ r : Fin 2048, x = ix1 r := ⟨x 0, eq_ix1 x⟩
    exact piece_apply x0 x1 x2 x3 _ _ _ r

end Cert.KernelIdeal.Rows

end
-- ==== Proof.RowLaw.lean ====
/-
  The algebra that joins the two programs, on the extended reals.

  Per row the kernel computes   (∑ₖ exp ((xₖ - μₖ)² · (h / vₖ))) · (1 / S)
  and the reference             (0 + ∑ₖ exp (h · ((xₖ - μₖ)² / vₖ))) / S,
  with h = -1/2, vₖ = varₖ + ε and S = ∑ₖ vₖ.  Where no vₖ is zero the exponents agree by commuting the products
  (a quotient by a nonzero divisor is the product with its inverse, at the infinities too).  The outer step,
  a · (1 / S) = a / S, holds for every nonzero S, and at S = 0 it holds because a, a sum of exponentials of
  real numbers, is positive: both sides are then +∞.
-/
import Idealize.ShloMosaic.PureOps.Ideal
import Idealize.ShloMosaic.PureOps.Ideal.Laws

noncomputable section

namespace Cert.RowLaw

open Idealize.ShloMosaic

/-! ### The constants the programs spell -/

/-- An f32 pattern whose exponent field is not all ones denotes a real number. -/
theorem f32_real (b : BitVec 32) (hb : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg hb]
  split_ifs <;> exact ⟨_, rfl⟩

/-- `-0.5` denotes a real number. -/
theorem negHalf_real : ∃ h : ℝ, Ideal.ofBits .f32 0xBF000000#32 = (h : EReal) := f32_real _ (by decide)

/-- The variance offset `1e-8` (as f32) denotes a real number. -/
theorem eps_real : ∃ e : ℝ, Ideal.ofBits .f32 0x322BCC77#32 = (e : EReal) := f32_real _ (by decide)

/-- `1.0` denotes `1`. -/
theorem ofBits_one : Ideal.ofBits .f32 0x3F800000#32 = 1 := by
  simp [Ideal.ofBits, Ideal.ieee, -EReal.coe_mul]; norm_num

/-! ### The two laws -/

/-- A factor moves across a quotient by a nonzero divisor: x · (h / v) = h · (x / v). -/
theorem mul_div_left_comm (x h v : EReal) (hv : v ≠ 0) : x * Ideal.div h v = h * Ideal.div x v := by
  unfold Ideal.div
  rw [if_neg hv, if_neg hv, mul_left_comm]

/-- For positive a, a · (1 / S) = a / S whatever S is: off zero by the definition of the quotient, and at zero both are +∞. -/
theorem mul_one_div (a S : EReal) (ha : 0 < a) : a * Ideal.div 1 S = Ideal.div a S := by
  unfold Ideal.div
  by_cases hS : S = 0
  · rw [if_pos hS, if_pos hS, if_pos zero_lt_one, if_pos ha, EReal.mul_top_of_pos ha]
  · rw [if_neg hS, if_neg hS, one_mul]

/-- One channel's exponential is a positive real when everything under it is real and the divisor is not zero. -/
theorem term_pos (h a b v : ℝ) (hv : v ≠ 0) :
    0 < Ideal.exp ((h : EReal) * Ideal.div (((a : EReal) - b) * ((a : EReal) - b)) (v : EReal)) := by
  rw [Ideal.div_coe hv, ← EReal.coe_sub, ← EReal.coe_mul, ← EReal.coe_mul, ← EReal.coe_mul, Ideal.exp_coe]
  exact EReal.coe_pos.2 (Real.exp_pos _)

/-- THE ROW LAW. For real x, μ, v with no vₖ zero, a real h and any S. -/
theorem row_eq (H : EReal) (hH : ∃ h : ℝ, H = (h : EReal)) (xr mu v : Fin 128 → EReal)
    (hx : ∀ k, ∃ a : ℝ, xr k = (a : EReal)) (hmu : ∀ k, ∃ b : ℝ, mu k = (b : EReal))
    (hv : ∀ k, ∃ c : ℝ, v k = (c : EReal)) (hv0 : ∀ k, v k ≠ 0) (S : EReal) :
    (∑ k : Fin 128, Ideal.exp ((xr k - mu k) * (xr k - mu k) * Ideal.div H (v k))) * Ideal.div 1 S
      = Ideal.div (0 + ∑ k : Fin 128, Ideal.exp (H * Ideal.div ((xr k - mu k) * (xr k - mu k)) (v k))) S := by
  obtain ⟨h, rfl⟩ := hH
  choose a ha using hx
  choose b hb using hmu
  choose c hc using hv
  have hterm : ∀ k : Fin 128, Ideal.exp ((xr k - mu k) * (xr k - mu k) * Ideal.div (h : EReal) (v k))
      = Ideal.exp ((h : EReal) * Ideal.div ((xr k - mu k) * (xr k - mu k)) (v k)) :=
    fun k => congrArg Ideal.exp (mul_div_left_comm _ _ _ (hv0 k))
  have hpos : ∀ k : Fin 128, 0 < Ideal.exp ((h : EReal) * Ideal.div ((xr k - mu k) * (xr k - mu k)) (v k)) := by
    intro k
    have hc0 : c k ≠ 0 := fun e => hv0 k (by rw [hc k, e]; rfl)
    rw [ha k, hb k, hc k]
    exact term_pos h (a k) (b k) (c k) hc0
  rw [Finset.sum_congr rfl fun k _ => hterm k, zero_add]
  refine mul_one_div _ S ?_
  rw [Fin.sum_univ_succ]
  exact add_pos_of_pos_of_nonneg (hpos 0) (Finset.sum_nonneg fun k _ => (hpos _).le)

end Cert.RowLaw

end
-- ==== Proof.KernelValue.lean ====
/-
  The kernel's result array, as one function of the arrays the region finds.

  Point t of the 32-point grid stages rows 32768·t … 32768·t + 32767 of `x` and writes back rows 32768·t … of the
  result; the other three windows are whole small arrays (the means, the per-channel factors, the 1×1 scalar) at every
  point.  So what point t writes back is block t of
      row i  ↦  (∑ₖ exp ((x i k - μ k)² · s k)) · inv,
  the blocks tile the [1048576] result, and the result array ends holding that function.
  The factors and the scalar are what @main's host operations before the call leave:
      s k = h / (var k + ε),     inv = 1 / (0 + ∑ⱼ (var j + ε)).
-/
import proofs.«413082_j46179488367043_3_alg».proof.Proof.Gen.KernelIdeal.Value
import proofs.«413082_j46179488367043_3_alg».proof.Proof.Block
import proofs.«413082_j46179488367043_3_alg».proof.Proof.RowLaw
import Idealize.ShloMosaic.Lib.StableHlo.Run

set_option maxRecDepth 16384

noncomputable section

namespace Cert.KernelIdeal.Rows

open Cert.KernelIdeal Cert.KernelIdeal.Gen Idealize.ShloMosaic Idealize.ShloMosaic.ValueIdx
open Idealize.ShloMosaic.TcCoe Idealize.ShloMosaic.StableHlo
open Idealize.SL Idealize.SL.Sem
open Idealize.ShloMosaic.Pipeline (Dat)

variable (m : (ℓ : Loc nD τ sig) → Buf (Elt Ideal) ℓ) (ρ : Dev nD → PrngReg)

/-- The arrays as the region finds them, each at its literal type: `x`, the means, the per-channel factors, the 1×1
    scalar (the four windows' arrays), and `var` as launched. -/
abbrev xarr (c : Dev nD) : Vec Ideal S1048576x128 .f32 := V m c main_arg0
abbrev muarr (c : Dev nD) : Vec Ideal S1x128 .f32 := V m c main_arg1
abbrev scarr (c : Dev nD) : Vec Ideal S1x128 .f32 := V m c main_v3
abbrev invarr (c : Dev nD) : Vec Ideal S1x1 .f32 := V m c main_v6
abbrev vararr (c : Dev nD) : Vec Ideal S1x128 .f32 := m ((c : Thread nD τ).loc main_arg2)

/-- No host operation writes `x` or the means: the region finds them as launched. -/
theorem xarr_eq (c : Dev nD) : xarr m c = m ((c : Thread nD τ).loc main_arg0) := V_main_arg0 m c
theorem muarr_eq (c : Dev nD) : muarr m c = m ((c : Thread nD τ).loc main_arg1) := V_main_arg1 m c

/-- The whole result from the whole arrays: row i from row i of `x`. -/
def rowsOf (X : Vec Ideal S1048576x128 .f32) (MU SC : Vec Ideal S1x128 .f32) (INV : Vec Ideal S1x1 .f32) :
    Vec Ideal S1048576 .f32 :=
  fun i => (∑ k : Fin 128, Ideal.exp ((X (ix2 (n0 := 1048576) (n1 := 128) (i 0) k) - MU (ix2 (0 : Fin 1) k))
      * (X (ix2 (n0 := 1048576) (n1 := 128) (i 0) k) - MU (ix2 (0 : Fin 1) k)) * SC (ix2 (0 : Fin 1) k)))
    * INV (ix2 (0 : Fin 1) (0 : Fin 1))

/-- The printed index maps over the grid: the `x` window moves with the result window along the rows and stays at
    lane block 0; the three small windows stay at block (0, 0). -/
theorem idx_facts : ∀ t : Fin cfg0.N, win0_0.index t (0 : Fin 2) = win0_4.index t (0 : Fin 1)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every one of the 32 row blocks is some point's. -/
theorem idx_onto : ∀ q : Fin 32, ∃ t : Fin cfg0.N, win0_4.index t = ![q.val] :=
  (by decide +kernel : ∀ q : Fin 32, ∃ t : Fin grid0.N, win0_4.index t = ![q.val])

/-- WHAT POINT t WRITES BACK is block t of the rows' function of the arrays as the region finds them. -/
theorem flushed_eq (c : Dev nD) (t : Fin cfg0.N) :
    (dats m 0 c).flushed 4 t = ((cfg0.win 4).blk t).view.read (Elt Ideal)
      (rowsOf (xarr m c) (muarr m c) (scarr m c) (invarr m c)) := by
  rw [Value.flushed4_A, out_eq]
  obtain ⟨e00, e01, e10, e11, e20, e21, e30, e31⟩ := idx_facts t
  funext j
  obtain ⟨q, rfl⟩ : ∃ q : Fin 32768, j = ix1 q := ⟨j 0, eq_ix1 j⟩
  have h0 : ∀ k : Fin 128, ((cfg0.win 0).blk t).view.emb (ix2 (n0 := 32768) (n1 := 128) q k)
      = ix2 (n0 := 1048576) (n1 := 128) (((cfg0.win 4).blk t).view.emb (ix1 q) 0) k := by
    intro k; funext a; apply Fin.ext
    match a with
    | ⟨0, _⟩ => show win0_0.index t (0 : Fin 2) * 32768 + 1 * q.val = win0_4.index t (0 : Fin 1) * 32768 + 1 * q.val; omega
    | ⟨1, _⟩ => show win0_0.index t (1 : Fin 2) * 128 + 1 * k.val = k.val; omega
  have h1 : ∀ k : Fin 128, ((cfg0.win 1).blk t).view.emb (ix2 (0 : Fin 1) k) = ix2 (0 : Fin 1) k := by
    intro k; funext a; apply Fin.ext
    match a with
    | ⟨0, _⟩ => show win0_1.index t (0 : Fin 2) * 1 + 1 * 0 = 0; omega
    | ⟨1, _⟩ => show win0_1.index t (1 : Fin 2) * 128 + 1 * k.val = k.val; omega
  have h2 : ∀ k : Fin 128, ((cfg0.win 2).blk t).view.emb (ix2 (0 : Fin 1) k) = ix2 (0 : Fin 1) k := by
    intro k; funext a; apply Fin.ext
    match a with
    | ⟨0, _⟩ => show win0_2.index t (0 : Fin 2) * 1 + 1 * 0 = 0; omega
    | ⟨1, _⟩ => show win0_2.index t (1 : Fin 2) * 128 + 1 * k.val = k.val; omega
  have h3 : ((cfg0.win 3).blk t).view.emb (ix2 (0 : Fin 1) (0 : Fin 1)) = ix2 (0 : Fin 1) (0 : Fin 1) := by
    funext a; apply Fin.ext
    match a with
    | ⟨0, _⟩ => show win0_3.index t (0 : Fin 2) * 1 + 1 * 0 = 0; omega
    | ⟨1, _⟩ => show win0_3.index t (1 : Fin 2) * 1 + 1 * 0 = 0; omega
  show (∑ k : Fin 128, Ideal.exp ((xarr m c (((cfg0.win 0).blk t).view.emb (ix2 (n0 := 32768) (n1 := 128) q k))
          - muarr m c (((cfg0.win 1).blk t).view.emb (ix2 (0 : Fin 1) k)))
        * (xarr m c (((cfg0.win 0).blk t).view.emb (ix2 (n0 := 32768) (n1 := 128) q k))
          - muarr m c (((cfg0.win 1).blk t).view.emb (ix2 (0 : Fin 1) k)))
        * scarr m c (((cfg0.win 2).blk t).view.emb (ix2 (0 : Fin 1) k))))
      * invarr m c (((cfg0.win 3).blk t).view.emb (ix2 (0 : Fin 1) (0 : Fin 1)))
    = rowsOf (xarr m c) (muarr m c) (scarr m c) (invarr m c) (((cfg0.win 4).blk t).view.emb (ix1 q))
  rw [h3]
  simp only [h0, h1, h2]
  rfl

/-- An index of the result is in point t's block iff its row is in the block's range. -/
theorem mem_blk (t : Fin cfg0.N) (i : S1048576.Idx) :
    i ∈ ((cfg0.win 4).blk t).view.set ↔ ∀ a : Fin 1, win0_4.index t a * S32768.size a ≤ (i a).val
      ∧ (i a).val < win0_4.index t a * S32768.size a + S32768.size a := by
  show i ∈ ((View.whole main_v7).slice (win0_4.rect t)).set ↔ _
  rw [View.set_slice_whole, Rect.mem_set_unit]
  exact Iff.rfl

/-- Every row is in some point's block: row i in block i / 32768. -/
theorem cover (i : S1048576.Idx) : ∃ t : Fin cfg0.N, (cfg0.win 4).flush t = true ∧ i ∈ ((cfg0.win 4).blk t).view.set := by
  have hi : (i 0).val < 1048576 := (i 0).isLt
  obtain ⟨t, ht⟩ := idx_onto ⟨(i 0).val / 32768, by omega⟩
  have q0 : win0_4.index t (0 : Fin 1) = (i 0).val / 32768 := congrFun ht 0
  refine ⟨t, flush0_4 t, ?_⟩
  rw [mem_blk]
  intro a
  match a with
  | ⟨0, _⟩ => show win0_4.index t (0 : Fin 1) * 32768 ≤ (i 0).val ∧ (i 0).val < win0_4.index t (0 : Fin 1) * 32768 + 32768; omega

/-- THE RESULT ARRAY after the run. -/
theorem final (c : Dev nD) : (dats m 0 c).arrAt 4 cfg0.N
    = rowsOf (xarr m c) (muarr m c) (scarr m c) (invarr m c) :=
  (dats m 0 c).arrAt_eq_of_cover 4 _ (fun t _ => flushed_eq m c t) cover

/-! ### What the host operations before the call leave -/

/-- The per-channel factors: the literal -0.5 over var + ε. -/
theorem V_scale (c : Dev nD) : scarr m c
    = Host.divf (broadcastInDim S1x128 ![] bcast_S_S1x128 (constant (F := Ideal) S_ .f32 0xBF000000#32))
        (addf (vararr m c) (broadcastInDim S1x128 ![] bcast_S_S1x128 (constant (F := Ideal) S_ .f32 0x322BCC77#32))) := by
  dsimp only [scarr, vararr, V, hostOps0]; after_results

/-- The scalar: 1 over the sum of var + ε, reshaped to 1×1. -/
theorem V_inv (c : Dev nD) : invarr m c
    = shapeCast S1x1 (Host.divf (constant (F := Ideal) S_ .f32 0x3F800000#32)
        (Host.reduceAdd (addf (vararr m c) (broadcastInDim S1x128 ![] bcast_S_S1x128 (constant (F := Ideal) S_ .f32 0x322BCC77#32)))
          (constant (F := Ideal) S_ .f32 0x00000000#32) reducesTo_S1x128_S_d0_1 h_S_)) shapeCasts_S_S1x1 := by
  dsimp only [invarr, vararr, V, hostOps0]; after_results; rfl

/-- The factors at a channel. -/
theorem V_scale_apply (c : Dev nD) (k : Fin 128) : scarr m c (ix2 (0 : Fin 1) k)
    = Ideal.div (Ideal.ofBits .f32 0xBF000000#32) (vararr m c (ix2 (0 : Fin 1) k) + Ideal.ofBits .f32 0x322BCC77#32) := by
  rw [V_scale]; rfl

/-- The scalar's one entry. -/
theorem V_inv_apply (c : Dev nD) : invarr m c (ix2 (0 : Fin 1) (0 : Fin 1))
    = Ideal.div 1 (0 + ∑ j : S1x128.Idx, (vararr m c j + Ideal.ofBits .f32 0x322BCC77#32)) := by
  rw [V_inv]
  unfold shapeCast
  show Ideal.div (Ideal.ofBits .f32 0x3F800000#32) (Ideal.hostReduceAdd reducesTo_S1x128_S_d0_1 _ (Ideal.ofBits .f32 0x00000000#32) _) = _
  rw [Ideal.hostReduceAdd_total reducesTo_S1x128_S_d0_1 (fun b => b.elim0), Ideal.ofBits_zero_f32, Cert.RowLaw.ofBits_one]
  rfl

end Cert.KernelIdeal.Rows

end
-- ==== Proof.RefRows.lean ====
/-
  The reference's result, read at a row.

  Row i of the reference's result is
      (0 + ∑ₖ exp (h · ((x i k - μ k)² / (var k + ε)))) / (0 + ∑ⱼ (var j + ε)),
  h the literal -0.5 and ε the literal 1e-8 (as f32): the generated stage lemmas chained, with their index functions
  written as (row, channel) pairs.
-/
import proofs.«413082_j46179488367043_3_alg».proof.Proof.Gen.ReferenceIdeal.Read
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx

/-- The row sum's operand index is the pair (row, channel). -/
theorem idx10_eq (i : S1048576.Idx) (k : Fin 128) : idx_main_v10 i k = ix2 (n0 := 1048576) (n1 := 128) (i 0) k :=
  funext fun a => Fin.ext (by match a with | ⟨0, _⟩ => rfl | ⟨1, _⟩ => rfl)

/-- A [1,128] row broadcast along the rows is read at (0, channel). -/
theorem idx2_eq (i : S1048576.Idx) (k : Fin 128) : idx_main_v2 (ix2 (n0 := 1048576) (n1 := 128) (i 0) k) = ix2 (0 : Fin 1) k :=
  funext fun a => Fin.ext (by match a with | ⟨0, _⟩ => rfl | ⟨1, _⟩ => rfl)

theorem idx5_eq (i : S1048576.Idx) (k : Fin 128) : idx_main_v5 (ix2 (n0 := 1048576) (n1 := 128) (i 0) k) = ix2 (0 : Fin 1) k :=
  funext fun a => Fin.ext (by match a with | ⟨0, _⟩ => rfl | ⟨1, _⟩ => rfl)

/-- THE REFERENCE AT ROW i. -/
theorem ref_apply (x0 : (⟨S1048576x128, .f32⟩ : BufTy).Contents (Elt Ideal)) (x1 x2 : (⟨S1x128, .f32⟩ : BufTy).Contents (Elt Ideal))
    (i : S1048576.Idx) :
    val_main_v13 (F := Ideal) x0 x1 x2 i
      = Ideal.div (0 + ∑ k : Fin 128, Ideal.exp (Ideal.ofBits .f32 0xBF000000#32
            * Ideal.div ((x0 (ix2 (n0 := 1048576) (n1 := 128) (i 0) k) - x1 (ix2 (0 : Fin 1) k)) * (x0 (ix2 (n0 := 1048576) (n1 := 128) (i 0) k) - x1 (ix2 (0 : Fin 1) k)))
                (x2 (ix2 (0 : Fin 1) k) + Ideal.ofBits .f32 0x322BCC77#32)))
          (0 + ∑ j : S1x128.Idx, (x2 j + Ideal.ofBits .f32 0x322BCC77#32)) := by
  rw [val_main_v13_apply, val_main_v10_apply, val_main_v12_apply, val_main_v11_apply]
  simp only [idx10_eq, val_main_v9_apply, val_main_v8_apply, val_main_v7_apply, val_main_cst_0_apply, val_main_v6_apply,
    val_main_v4_apply, val_main_v3_apply, val_main_v2_apply, val_main_v5_apply, val_main_v1_apply, val_main_v0_apply,
    val_main_cst_apply, val_main_cst_1_apply, val_main_cst_2_apply, idx2_eq, idx5_eq,
    Ideal.hostDivf_def, Ideal.mulf_def, Ideal.subf_def, Ideal.addf_def, Ideal.hostUnary_exp_def, Ideal.ofBits_def,
    Ideal.ofBits_zero_f32]

end Cert.ReferenceIdeal.Rows

end
-- ==== Proof.PreFacts.lean ====
/-
  The precondition, read back on the extended reals.

  The printed predicate is the conjunction of four `all`s:  |x| < +∞, |mean| < +∞, |var| < +∞ elementwise, and
  var + ε ≠ 0 elementwise.  On the extended reals |y| < +∞ says that y is a real number, so the precondition gives:
  every entry of x, mean and var is real, and no channel's var + ε is zero.
-/
import proofs.«413082_j46179488367043_3_alg».proof.Pre_finite_inputs
import proofs.«413082_j46179488367043_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

theorem ofBool_eq_one {b : Bool} : BitVec.ofBool b = 1#1 ↔ b = true := by cases b <;> decide

/-- The pattern of `+inf` denotes `⊤`. -/
theorem ofBits_inf : Ideal.ofBits .f32 0x7F800000#32 = ⊤ := by simp [Ideal.ofBits, Ideal.ieee]

/-- |y| < +∞ holds only of a real number. -/
theorem real_of_abs_lt_inf (y : EReal)
    (e : Ideal.cmp .olt (max y (-y)) (Ideal.ofBits .f32 0x7F800000#32) = 1#1) : ∃ r : ℝ, y = (r : EReal) := by
  have h : BitVec.ofBool (decide (max y (-y) < Ideal.ofBits .f32 0x7F800000#32)) = 1#1 := e
  rw [ofBool_eq_one, decide_eq_true_iff, ofBits_inf] at h
  induction y using EReal.rec with
  | bot => simp at h
  | coe r => exact ⟨r, rfl⟩
  | top => simp at h

/-- A comparison "not equal" that came out true. -/
theorem ne_of_cmp_une (y z : EReal) (e : Ideal.cmp .une y z = 1#1) : y ≠ z := by
  have h : BitVec.ofBool (decide (y ≠ z)) = 1#1 := e
  rw [ofBool_eq_one, decide_eq_true_iff] at h
  exact h

/-- WHAT THE PRECONDITION SAYS: the three arrays hold real numbers, and var + ε is nowhere zero. -/
theorem reals_and_divisor (a0 : FVec Ideal S1048576x128 .f32) (a1 a2 : FVec Ideal S1x128 .f32)
    (h : fn (F := Ideal) a0 a1 a2 = fun _ => 1#1) :
    (∀ i, ∃ r : ℝ, a0 i = (r : EReal)) ∧ (∀ j, ∃ r : ℝ, a1 j = (r : EReal)) ∧ (∀ j, ∃ r : ℝ, a2 j = (r : EReal))
      ∧ (∀ j, a2 j + Ideal.ofBits .f32 0x322BCC77#32 ≠ 0) := by
  have h0 := congrFun h ix0
  dsimp only [fn, fn_part1] at h0
  obtain ⟨h012, h3⟩ := IntOp.andi_eq_one.1 h0
  obtain ⟨h01, h2⟩ := IntOp.andi_eq_one.1 h012
  obtain ⟨hx, hm⟩ := IntOp.andi_eq_one.1 h01
  refine ⟨fun i => ?_, fun j => ?_, fun j => ?_, fun j => ?_⟩
  · exact real_of_abs_lt_inf (a0 i) (Host.reduce_andi_all _ _ _ _ _ hx i)
  · exact real_of_abs_lt_inf (a1 j) (Host.reduce_andi_all _ _ _ _ _ hm j)
  · exact real_of_abs_lt_inf (a2 j) (Host.reduce_andi_all _ _ _ _ _ h2 j)
  · have e := ne_of_cmp_une _ _ (Host.reduce_andi_all _ _ _ _ _ h3 j)
    intro hz
    refine e (hz.trans ?_)
    exact Ideal.ofBits_zero_f32.symm

end Cert.Pre_finite_inputs.Decode

end
-- ==== Proof.Bridge.lean ====
/-
  The two programs compute one function, under the precondition.

  The kernel's result is   row i ↦ (∑ₖ exp ((x i k - μ k)² · (h / (var k + ε)))) · (1 / S),
  the reference's          row i ↦ (0 + ∑ₖ exp (h · ((x i k - μ k)² / (var k + ε)))) / S,     S = 0 + ∑ⱼ (var j + ε).
  The precondition makes x, μ and var real and no var k + ε zero; the row law then joins the two.
-/
import proofs.«413082_j46179488367043_3_alg».proof.Proof.KernelValue
import proofs.«413082_j46179488367043_3_alg».proof.Proof.RefRows
import proofs.«413082_j46179488367043_3_alg».proof.Proof.RowLaw
import proofs.«413082_j46179488367043_3_alg».proof.Proof.PreFacts

noncomputable section

namespace Cert.Bridge

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- THE BRIDGE: on a device whose argument arrays satisfy the precondition, the kernel's result function of the arrays
    the region finds is the reference's last stage of the launch arrays. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) = fun _ => 1#1) :
    Cert.KernelIdeal.Rows.rowsOf (Cert.KernelIdeal.Rows.xarr m c) (Cert.KernelIdeal.Rows.muarr m c)
        (Cert.KernelIdeal.Rows.scarr m c) (Cert.KernelIdeal.Rows.invarr m c)
      = Cert.ReferenceIdeal.Read.val_main_v13 (F := Ideal) (m ((c.tc : Thread nD τ).loc main_arg0))
          (m ((c.tc : Thread nD τ).loc main_arg1)) (m ((c.tc : Thread nD τ).loc main_arg2)) := by
  obtain ⟨hx, hmu, hvar, hdiv⟩ := Cert.Pre_finite_inputs.Decode.reals_and_divisor _ _ _ hpre
  obtain ⟨e, he⟩ := Cert.RowLaw.eps_real
  funext i
  rw [Cert.ReferenceIdeal.Rows.ref_apply]
  unfold Cert.KernelIdeal.Rows.rowsOf
  rw [Cert.KernelIdeal.Rows.V_inv_apply]
  simp only [Cert.KernelIdeal.Rows.V_scale_apply]
  rw [Cert.KernelIdeal.Rows.xarr_eq, Cert.KernelIdeal.Rows.muarr_eq]
  exact Cert.RowLaw.row_eq (Ideal.ofBits .f32 0xBF000000#32) Cert.RowLaw.negHalf_real
    (fun k => m ((c.tc : Thread nD τ).loc main_arg0) (ix2 (n0 := 1048576) (n1 := 128) (i 0) k))
    (fun k => m ((c.tc : Thread nD τ).loc main_arg1) (ix2 (0 : Fin 1) k))
    (fun k => Cert.KernelIdeal.Rows.vararr m c (ix2 (0 : Fin 1) k) + Ideal.ofBits .f32 0x322BCC77#32)
    (fun k => hx _) (fun k => hmu _)
    (fun k => by
      obtain ⟨r, hr⟩ := hvar (ix2 (0 : Fin 1) k)
      have hr' : Cert.KernelIdeal.Rows.vararr m c (ix2 (0 : Fin 1) k) = (r : EReal) := hr
      exact ⟨r + e, by rw [hr', he, EReal.coe_add]⟩)
    (fun k => hdiv _) _

end Cert.Bridge

end
-- ==== Proof.lean ====
/-
  The certificate's claim: a per-row Gaussian density sum, tiled over rows, against its jnp reference.

  Both programs map x : [1048576, 128], mean, var : [1, 128] to the [1048576] vector whose row i is
      (∑ₖ exp (-½ · (x i k - mean k)² / (var k + ε))) / ∑ₖ (var k + ε).
  The kernel folds -½ / (var k + ε) and 1 / ∑ (var k + ε) into per-channel factors and a scalar on the host and
  multiplies by them; the reference divides.  On the extended reals the two agree wherever the reference's
  divisor var k + ε is nowhere zero (the precondition's last conjunct: at a zero divisor with x i k = mean k the
  reference's 0/0 and the kernel's 0 · ∞ read differently), and the final a · (1/S) = a / S holds for every S
  because each row sum a is positive.

  The frames are the generated ones; the kernel's result array is read off the generated blockwise value leg
  (Proof/Block.lean, Proof/KernelValue.lean), the reference's off its generated run and stage lemmas
  (Proof/RefRows.lean); Proof/RowLaw.lean is the algebra and Proof/PreFacts.lean the precondition read back.
-/
import proofs.«413082_j46179488367043_3_alg».proof.Defs
import proofs.«413082_j46179488367043_3_alg».proof.Proof.Gen.Kernel
import proofs.«413082_j46179488367043_3_alg».proof.Proof.Gen.Kernel.Skeleton
import proofs.«413082_j46179488367043_3_alg».proof.Proof.Gen.Kernel.Launch
import proofs.«413082_j46179488367043_3_alg».proof.Proof.Gen.Kernel.Points
import proofs.«413082_j46179488367043_3_alg».proof.Proof.Gen.Kernel.Frame
import proofs.«413082_j46179488367043_3_alg».proof.Proof.Gen.KernelIdeal
import proofs.«413082_j46179488367043_3_alg».proof.Proof.Gen.KernelIdeal.Skeleton
import proofs.«413082_j46179488367043_3_alg».proof.Proof.Gen.KernelIdeal.Launch
import proofs.«413082_j46179488367043_3_alg».proof.Proof.Gen.KernelIdeal.Points
import proofs.«413082_j46179488367043_3_alg».proof.Proof.Gen.KernelIdeal.Frame
import proofs.«413082_j46179488367043_3_alg».proof.Proof.Gen.ReferenceIdeal
import proofs.«413082_j46179488367043_3_alg».proof.Proof.Gen.Pre_finite_inputs
import proofs.«413082_j46179488367043_3_alg».proof.Proof.Gen.KernelIdeal.Value
import proofs.«413082_j46179488367043_3_alg».proof.Proof.Gen.ReferenceIdeal.Run
import proofs.«413082_j46179488367043_3_alg».proof.Proof.Gen.ReferenceIdeal.Read
import proofs.«413082_j46179488367043_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the kernel's row function of the arrays the region finds; the reference's
    composed term is its last stage, which the bridge identifies with that function under the precondition. -/
theorem algebraic : Cert.algebraic_KernelIdeal_ReferenceIdeal := by
  intro m ρ m' ρ' hpre hagree
  refine ⟨fun c => Cert.KernelIdeal.Rows.rowsOf (Cert.KernelIdeal.Rows.xarr m c) (Cert.KernelIdeal.Rows.muarr m c)
      (Cert.KernelIdeal.Rows.scarr m c) (Cert.KernelIdeal.Rows.invarr m c), ?_, ?_⟩
  · exact (θ_run Cert.KernelIdeal.defs _ _).mono
      (fun r h c => ⟨(h c).1.trans (Cert.KernelIdeal.Rows.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, (hagree c).1, (hagree c).2.1, (hagree c).2.2]
    exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
